-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S16384x1024 : Shape := ⟨2, ![16384, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16777216, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16777216_S16384x1024 : S16777216.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x1024_S16777216 : S16384x1024.ShapeCasts S16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S_, .f32⟩
  | .hbm, ⟨4, _⟩ => ⟨S16777216, .f32⟩
  | .hbm, ⟨5, _⟩ => ⟨S16777216, .f32⟩
  | .hbm, ⟨6, _⟩ => ⟨S16777216, .f32⟩
  | .hbm, ⟨7, _⟩ => ⟨S16777216, .f32⟩
  | .hbm, ⟨8, _⟩ => ⟨S_, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S_, .f32⟩
  | .hbm, ⟨22, _⟩ => ⟨S16777216, .f32⟩
  | .hbm, ⟨23, _⟩ => ⟨S16777216, .f32⟩
  | .hbm, ⟨24, _⟩ => ⟨S_, .f32⟩
  | .hbm, ⟨25, _⟩ => ⟨S16777216, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S16777216, .f32⟩
  | .hbm, ⟨30, _⟩ => ⟨S16777216, .i1⟩
  | .hbm, ⟨31, _⟩ => ⟨S_, .f32⟩
  | .hbm, ⟨32, _⟩ => ⟨S16777216, .f32⟩
  | .hbm, ⟨33, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)

variable [Facts₀]

class Facts : Prop extends Facts₀ where

variable [Facts]
-- ==== Proof.Spec.lean ====
/-
  The per-element loss both programs compute, as ONE function of a prediction `p` and a label `y` on the
  extended reals:

      loss p y = if (p - 1/2) * (2 * y - 1) > 0 then 0
                 else -(y * max (log p) (-100) + (1 - y) * max (log (1 + (-p))) (-100))

  (binary cross-entropy with both logarithms clamped below at -100, set to zero where the prediction already
  lies on the label's side of 1/2), and the whole result array as that function applied index by index. The
  float literals stay the words the programs print; only the zero word is ever evaluated, for the one law the
  two programs differ by: the kernel writes a negation as `0 - x`, the reference as `-x`, and on the extended
  reals `0 - x = -x` at every `x`, the infinities included.
-/
import Idealize.ShloMosaic.PureOps.Ideal
import Idealize.ShloMosaic.PureOps.Ideal.Laws
import Idealize.ShloMosaic.Lib.ValueIdx

noncomputable section

namespace Cert.NeoLoss

open Idealize.ShloMosaic

/-- The clamp `-100`, the words `1/2`, `1`, `2` and `0` as the programs print them. -/
abbrev cClamp : Ideal .f32 := Ideal.ofBits .f32 0xC2C80000#32
abbrev cHalf : Ideal .f32 := Ideal.ofBits .f32 0x3F000000#32
abbrev cOne : Ideal .f32 := Ideal.ofBits .f32 0x3F800000#32
abbrev cTwo : Ideal .f32 := Ideal.ofBits .f32 0x40000000#32
abbrev cZero : Ideal .f32 := Ideal.ofBits .f32 0x00000000#32

/-- The clamped cross-entropy of one prediction and one label, negated: `-(y·max(log p, -100) + (1-y)·max(log(1-p), -100))`. -/
def bce (p y : Ideal .f32) : Ideal .f32 :=
  -(y * max (Ideal.log p) cClamp + (cOne - y) * max (Ideal.log1p (-p)) cClamp)

/-- Whether the prediction is already on the label's side of one half: `(p - 1/2)·(2y - 1) > 0`, as a bit. -/
def onSide (p y : Ideal .f32) : BitVec 1 :=
  FloatOps.cmpf (F := Ideal) .ogt ((p - cHalf) * (cTwo * y - cOne)) cZero

/-- The loss of one element: zero where the prediction is on the label's side, the clamped cross-entropy elsewhere. -/
def loss (p y : Ideal .f32) : Ideal .f32 :=
  Scalar.select (onSide p y) cZero (bce p y)

/-- On the extended reals subtracting from the zero word is negation, at every value. -/
theorem zero_sub_eq_neg (x : Ideal .f32) : cZero - x = -x := by
  show Ideal.ofBits .f32 0x00000000#32 - x = -x
  rw [Ideal.ofBits_zero_f32]
  show (0 : EReal) - x = -x
  rw [sub_eq_add_neg, zero_add]

/-- The loss as the KERNEL spells it: both negations written as differences from zero. -/
theorem loss_eq_sub (p y : Ideal .f32) :
    Scalar.select (onSide p y) cZero
        (cZero - (y * max (Ideal.log p) cClamp + (cOne - y) * max (Ideal.log1p (cZero - p)) cClamp))
      = loss p y := by
  unfold loss bce
  rw [zero_sub_eq_neg, zero_sub_eq_neg]

end Cert.NeoLoss

end
-- ==== Proof.RefValue.lean ====
/-
  The reference, read one operation at a time and index by index, is the per-element loss of the two argument
  arrays: every host operation of its @main is pointwise, its logarithm and its `log (1 + ·)` are the extended
  reals' own, its negation is `-x`, and the broadcast scalars are the printed words themselves.
-/
import proofs.«127690_j48223892800204_1_alg».proof.Proof.Gen.ReferenceIdeal.Read
import proofs.«127690_j48223892800204_1_alg».proof.Proof.Spec

noncomputable section

namespace Cert.NeoLoss.Ref

open Idealize.ShloMosaic Cert.ReferenceIdeal Cert.ReferenceIdeal.Read

/-- The last stage of the reference (the `select` of its `where`) at index `i` is the loss of the two arguments
    at `i`: the stages read outermost first, each at the same index, then the operations at the ideal instance are
    the extended reals' by definition. -/
theorem result_eq (p y : (⟨S16777216, .f32⟩ : BufTy).Contents (Elt Ideal)) :
    val_main_v23 (F := Ideal) p y = fun i => loss (p i) (y i) := by
  funext i
  rw [val_main_v23_apply, val_main_v21_apply, val_main_v22_apply, val_main_cst_6_apply, val_main_v12_apply,
    val_main_v19_apply, val_main_v20_apply, val_main_cst_5_apply, val_main_v14_apply, val_main_v13_apply,
    val_main_cst_2_apply, val_main_v18_apply, val_main_v16_apply, val_main_v15_apply, val_main_cst_3_apply,
    val_main_v17_apply, val_main_cst_4_apply, val_main_v11_apply, val_main_v7_apply, val_main_v2_apply,
    val_main_v0_apply, val_main_v1_apply, val_main_cst_apply, val_main_v10_apply, val_main_v9_apply,
    val_main_v8_apply, val_main_cst_1_apply, val_main_v6_apply, val_main_v4_apply, val_main_v3_apply,
    val_main_v5_apply, val_main_cst_0_apply]
  rfl

end Cert.NeoLoss.Ref

end
-- ==== Proof.KerBlock.lean ====
/-
  The kernel's region. At each of its 16 grid points the body loads the point's 1024×1024 block of the two
  operand arrays, computes the per-element loss of the two blocks and stores it whole; block `t` of every window
  is rows `1024·t … 1024·t + 1023`, all 1024 columns. So what point `t` writes back is block `t` of ONE function of
  the operand arrays — their loss, entry by entry — and since the 16 blocks tile the 16384×1024 result array, the
  array after the region is that function.
-/
import proofs.«127690_j48223892800204_1_alg».proof.Proof.Gen.KernelIdeal.Frame
import proofs.«127690_j48223892800204_1_alg».proof.Proof.Spec
import Idealize.ShloMosaic.Lib.Pipeline.Value
import Idealize.ShloMosaic.Lib.ValueIdx

set_option maxRecDepth 16384

noncomputable section

namespace Cert.NeoLoss.Ker

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ)

/-- The body's one store starts at the block's origin. -/
theorem origin : (![0, 0] : Fin 2 → Nat) = fun _ => 0 := funext fun a => by fin_cases a <;> rfl

/-- The loss of two 16384×1024 arrays, entry by entry. -/
abbrev lossRows (a0 a1 : S16384x1024.Idx → Elt Ideal .f32) : S16384x1024.Idx → Elt Ideal .f32 :=
  fun i => loss (a0 i) (a1 i)

/-- The value the body stores is the loss of its two loaded blocks, entry by entry: the two same-shape casts are
    the identity, every other operation is pointwise, and the kernel's two differences from zero are negations. -/
theorem stored_eq (x0 x1 : Vec Ideal S1024x1024 .f32) :
    k0_pay1 (F := Ideal) x0 x1 = fun j => loss (x0 j) (x1 j) := by
  have e0 : shapeCast S1024x1024 x0 shapeCasts_S1024x1024_S1024x1024 = x0 := shapeCast_self _ _
  have e1 : shapeCast S1024x1024 x1 shapeCasts_S1024x1024_S1024x1024 = x1 := shapeCast_self _ _
  unfold k0_pay1
  dsimp only
  rw [e0, e1]
  funext j
  rw [← loss_eq_sub]
  rfl

/-- The printed index maps over the grid: at every point the three windows sit on the same block, a row block
    among the sixteen, the one column block. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 15
    ∧ win0_2.index t (1 : Fin 2) = 0 :=
  (by decide +kernel : ∀ t : Fin grid0.N, _)

/-- Every row block is some point's. -/
theorem block_onto : ∀ q : Fin 16, ∃ t : Fin cfg0.N, win0_2.index t = ![q.val, 0] :=
  (by decide +kernel : ∀ q : Fin 16, ∃ t : Fin grid0.N, win0_2.index t = ![q.val, 0])

/-- What point `t` writes back is block `t` of the loss of the two operand arrays as the region finds them. -/
theorem flushed_eq (c : Dev nD) (t : Fin cfg0.N) :
    (dats m 0 c).flushed 2 t
      = ((cfg0.win 2).blk t).view.read (Elt Ideal) (lossRows (V m c main_v0) (V m c main_v1)) := by
  show (cfg0.win 2).cut (grid0.coords t) ((dats m 0 c).after 2 t) = _
  rw [after0_2]
  unfold out0_2
  rw [View.canon_unit_zero origin]
  simp only [View.ld_unit_zero (S := S1024x1024) origin]
  rw [stored_eq]
  obtain ⟨e0, e1, e2, e3, e4, e5⟩ := same_block t
  funext j
  show loss (V m c main_v0 (((cfg0.win 0).blk t).view.emb j)) (V m c main_v1 (((cfg0.win 1).blk t).view.emb j))
    = loss (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * (j 1).val = win0_2.index t (1 : Fin 2) * 1024 + 1 * (j 1).val; omega
  have h1 : ((cfg0.win 1).blk t).view.emb j = ((cfg0.win 2).blk t).view.emb j := by
    funext a; apply Fin.ext
    match a with
    | ⟨0, _⟩ => show win0_1.index t (0 : Fin 2) * 1024 + 1 * (j 0).val = win0_2.index t (0 : Fin 2) * 1024 + 1 * (j 0).val; omega
    | ⟨1, _⟩ => show win0_1.index t (1 : Fin 2) * 1024 + 1 * (j 1).val = win0_2.index t (1 : Fin 2) * 1024 + 1 * (j 1).val; omega
  rw [h0, h1]

/-- An entry of the result array is in point `t`'s block iff each coordinate is in the block's range on its axis. -/
theorem mem_block (t : Fin cfg0.N) (i : S16384x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v2).slice (win0_2.rect t)).set ↔ _
  rw [View.set_slice_whole, Rect.mem_set_unit]
  exact Iff.rfl

/-- The sixteen blocks cover the result array: row `r` is in the block of the point on row block `r / 1024`. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ := block_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the region is the loss of the two operand arrays, entry by entry. -/
theorem region_result (c : Dev nD) :
    (dats m 0 c).arrAt 2 cfg0.N = lossRows (V m c main_v0) (V m c main_v1) :=
  (dats m 0 c).arrAt_eq_of_cover 2 _ (fun t _ => flushed_eq m c t) covered

end Cert.NeoLoss.Ker

end
-- ==== Proof.KerRun.lean ====
/-
  The kernel's whole @main. Before the region the two flat argument arrays are reshaped to 16384×1024, after it
  the 16384×1024 result is reshaped back to a flat array of 16777216 entries; both reshapes keep the row-major
  order, so the round trip is the identity on positions and the loss computed entry by entry on the reshaped
  operands, reshaped back, is the loss of the two flat arguments entry by entry.
-/
import proofs.«127690_j48223892800204_1_alg».proof.Proof.KerBlock
import Idealize.ShloMosaic.Lib.StableHlo.Run

set_option maxRecDepth 16384

noncomputable section

namespace Cert.NeoLoss.Ker

open Idealize.ShloMosaic Idealize.ShloMosaic.TcCoe Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- The loss of two flat arrays, entry by entry: what both programs return. -/
abbrev lossFlat (p y : S16777216.Idx → Elt Ideal .f32) : S16777216.Idx → Elt Ideal .f32 :=
  fun i => loss (p i) (y i)

/-- The region's first operand is the first argument reshaped to 16384×1024. -/
theorem operand0_eq (c : Dev nD) :
    (V m c main_v0 : S16384x1024.Idx → Elt Ideal .f32)
      = shapeCast S16384x1024 (m ((c : Thread nD τ).loc main_arg0)) shapeCasts_S16777216_S16384x1024 := by
  show StableHlo.after hostOps0 (fun b => m (c, b)) (Proc.devRef .tc main_v0) = _
  after_results
  rfl

/-- The region's second operand is the second argument reshaped to 16384×1024. -/
theorem operand1_eq (c : Dev nD) :
    (V m c main_v1 : S16384x1024.Idx → Elt Ideal .f32)
      = shapeCast S16384x1024 (m ((c : Thread nD τ).loc main_arg1)) shapeCasts_S16777216_S16384x1024 := by
  show StableHlo.after hostOps0 (fun b => m (c, b)) (Proc.devRef .tc main_v1) = _
  after_results
  rfl

/-- @main's result is the region's result array reshaped to a flat array. -/
theorem tail_eq (c : Dev nD) :
    (Pipeline.afterTail₀ cfgs (dats m) 0 (V0 m) [hostOps1] c main_v3 : S16777216.Idx → Elt Ideal .f32)
      = shapeCast S16777216 ((dats m 0 c).arrAt 2 cfg0.N) shapeCasts_S16384x1024_S16777216 := by
  unfold Pipeline.afterTail₀
  show StableHlo.after hostOps1 _ (Proc.devRef .tc main_v3) = _
  after_results
  have hw := Pipeline.withArrays_arr spec0 launch0.win.arr_inj c (V0 m c) (fun w => (dats m 0 c).arrAt w cfg0.N) 2
  show (fun i => shapeCast S16777216 (Pipeline.withArrays spec0 c (V0 m c) (fun w => (dats m 0 c).arrAt w cfg0.N)
      (Proc.devRef .tc (Pipeline.arrRef spec0 2))) shapeCasts_S16384x1024_S16777216 i) = _
  rw [hw]

/-- Reshaping two flat arrays to 16384×1024, taking the loss entry by entry and reshaping back is the loss of the
    flat arrays entry by entry: a reshape reads its operand at the same row-major position, and there and back is
    the identity. -/
theorem reshape_roundtrip (p y : S16777216.Idx → Elt Ideal .f32)
    (h1 : S16777216.ShapeCasts S16384x1024) (h2 : S16384x1024.ShapeCasts S16777216) :
    shapeCast S16777216 (lossRows (shapeCast S16384x1024 p h1) (shapeCast S16384x1024 y h1)) h2 = lossFlat p y := by
  show (fun i => loss (shapeCast S16777216 (shapeCast S16384x1024 p h1) h2 i)
      (shapeCast S16777216 (shapeCast S16384x1024 y h1) h2 i)) = _
  rw [shapeCast_shapeCast, shapeCast_shapeCast]

/-- @main's result is the loss of the two arguments, entry by entry. -/
theorem result_eq (c : Dev nD) :
    (Pipeline.afterTail₀ cfgs (dats m) 0 (V0 m) [hostOps1] c main_v3 : S16777216.Idx → Elt Ideal .f32)
      = lossFlat (m ((c : Thread nD τ).loc main_arg0)) (m ((c : Thread nD τ).loc main_arg1)) := by
  rw [tail_eq, region_result, operand0_eq, operand1_eq]
  exact reshape_roundtrip _ _ _ _

/-- Every weakly fair execution of the kernel's @main terminates with the result buffer at the loss of the two
    arguments, entry by entry, and the arguments as launched. -/
theorem run : θ_run defs (onTc (τ := τ) (main (F := Ideal))) ⟨m, fun _ => 0, ρ⟩ fun r => ∀ c : Dev nD,
      r.2.mem ((c.tc : Thread nD τ).loc main_v3)
        = lossFlat (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.NeoLoss.Ker

end
-- ==== Proof.lean ====
/-
  The kernel computes, over two flat float arrays `p` (predictions) and `y` (labels) of 16777216 entries, the
  clamped binary cross-entropy zeroed where the prediction is already on the label's side of one half,

      out i = if (p i - 1/2) * (2 * y i - 1) > 0 then 0
              else -(y i * max (log (p i)) (-100) + (1 - y i) * max (log (1 + (-p i))) (-100)),

  as one pointwise pass over 16 row blocks of the arrays reshaped to 16384×1024; the reference computes the same
  expression on the flat arrays with host operations. On the extended reals the two agree entry by entry at EVERY
  input: the operations are the same textbook ones on both sides, the reshapes keep every entry's position, and the
  only difference in spelling — the kernel's `0 - x` for the reference's `-x` — is an identity of the extended
  reals that holds at the infinities too, so the finiteness of the inputs is never used.

  The three frames are the generated ones (the reference's is its run with the result dropped); the idealization
  rewrote nothing, so `preserves` is trivial; `algebraic` puts the kernel's run (Proof/KerRun.lean, over the
  region's blocks in Proof/KerBlock.lean) beside the reference's run read stage by stage (Proof/RefValue.lean),
  both at the one function of Proof/Spec.lean.
-/
import proofs.«127690_j48223892800204_1_alg».proof.Defs
import proofs.«127690_j48223892800204_1_alg».proof.Proof.Gen.Kernel
import proofs.«127690_j48223892800204_1_alg».proof.Proof.Gen.Kernel.Frame
import proofs.«127690_j48223892800204_1_alg».proof.Proof.Gen.KernelIdeal
import proofs.«127690_j48223892800204_1_alg».proof.Proof.Gen.KernelIdeal.Frame
import proofs.«127690_j48223892800204_1_alg».proof.Proof.Gen.ReferenceIdeal
import proofs.«127690_j48223892800204_1_alg».proof.Proof.Gen.ReferenceIdeal.Run
import proofs.«127690_j48223892800204_1_alg».proof.Proof.Gen.ReferenceIdeal.Read
import proofs.«127690_j48223892800204_1_alg».proof.Proof.Gen.Pre_finite_inputs
import proofs.«127690_j48223892800204_1_alg».proof.Proof.RefValue
import proofs.«127690_j48223892800204_1_alg».proof.Proof.KerRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the loss of the two arguments, entry by entry: the kernel's run states it of its own
    arguments, the reference's last stage is that function of ITS arguments, and the arguments agree. -/
theorem algebraic : Cert.algebraic_KernelIdeal_ReferenceIdeal := by
  intro m ρ m' ρ' _ hagree
  refine ⟨fun c => Cert.NeoLoss.Ker.lossFlat
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.NeoLoss.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.NeoLoss.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
